-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S32x64 .f32) (main_arg4 : FVec F S64 .f32) (main_arg5 : FVec F S64x64 .f32) (main_arg6 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S10000x32 : Shape := ⟨2, ![10000, 32]⟩
abbrev S10000x1 : Shape := ⟨2, ![10000, 1]⟩
abbrev S10000x64 : Shape := ⟨2, ![10000, 64]⟩
abbrev S1700000x64 : Shape := ⟨2, ![1700000, 64]⟩
abbrev S1x64 : Shape := ⟨2, ![1, 64]⟩
abbrev S1x100000x64 : Shape := ⟨3, ![1, 100000, 64]⟩

abbrev nBuf : Space → Nat
  | .hbm => 56
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x64, .f32⟩
  | .hbm, ⟨34, _⟩ => ⟨S_, .f32⟩
  | .hbm, ⟨35, _⟩ => ⟨S100000x64, .f32⟩
  | .hbm, ⟨36, _⟩ => ⟨S1700000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S_, .f32⟩
  | .hbm, ⟨50, _⟩ => ⟨S100000x64, .f32⟩
  | .hbm, ⟨51, _⟩ => ⟨S1700000x1, .i32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S1x100000x64, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S64x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x1, .f32⟩
  | .local _ .vmem, ⟨20, _⟩ => ⟨S10000x1, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S100000x64_S1x100000x64_1_2 : S100000x64.BroadcastsInDim S1x100000x64 (![1, 2] : Fin 2 → Fin S1x100000x64.rank)
  scatter_S100000_S1700000x1_S1700000_n_0_0_1_wf : ScatterDims.WF S100000 S1700000x1 S1700000 [] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S100000x1.size a
  hwx1_4 : ∀ i : grid1.Coords, EltTy.bits .f32 = 32 ∨ (Rect.block (s := S100000x1) S10000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S10000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S100000x1 : Shape := ⟨2, ![100000, 1]⟩
abbrev S1700000x64 : Shape := ⟨2, ![1700000, 64]⟩
abbrev S1x64 : Shape := ⟨2, ![1, 64]⟩
abbrev S1x100000x64 : Shape := ⟨3, ![1, 100000, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S100000x1, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x64, .f32⟩
  | .hbm, ⟨35, _⟩ => ⟨S_, .f32⟩
  | .hbm, ⟨36, _⟩ => ⟨S100000x64, .f32⟩
  | .hbm, ⟨37, _⟩ => ⟨S1700000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x64_S1x100000x64_1_2 : S100000x64.BroadcastsInDim S1x100000x64 (![1, 2] : Fin 2 → Fin S1x100000x64.rank)
  scatter_S100000_S1700000x1_S1700000_n_0_0_1_wf : ScatterDims.WF S100000 S1700000x1 S1700000 [] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The dense stages of a two-layer graph convolution with symmetric degree normalisation, each as ONE function of whole
  arrays, entry by entry over the extended reals. A layer is  D_in^{-1/2} · A · D_out^{-1/2} · X · W + b : the sparse
  product with the adjacency A (a gather of source rows and a scatter-add into destination rows) sits between two dense
  stages, and only the dense stages are spelt here:

  * `projScale x w n` : the product x · w with row r scaled by the r-th entry of the column n
    (the projection of a layer's input, scaled by the out-degree factor of the row's node);
  * `reluProjScale g nd b w ns` : row r of g scaled by nd r, the row b added, the positive part taken, and THAT
    matrix projected and scaled as above (the first layer's close fused with the second layer's opening);
  * `scaleShift g nd b` : row r of g scaled by nd r, the row b added (a layer's close).

  Each is stated at explicit coordinates (`…At`, over `Fin` of the extents) and as an array; the extents are
  parameters, so that the same function reads a block of rows and the whole matrix, and a block of the whole matrix's
  function is the function of the blocks (`…At_congr`: an entry depends on its own row of the tall operands only).
-/
import Idealize.ShloMosaic.PureOps.Ideal.Laws
import Idealize.ShloMosaic.Lib.ValueIdx

noncomputable section

namespace Cert.Gcn

open Idealize.ShloMosaic Idealize.ShloMosaic.ValueIdx

/-- An `a × b` matrix of extended reals. -/
abbrev Mat (a b : ℕ) : Type := FVec Ideal ⟨2, ![a, b]⟩ .f32

/-- The float zero the positive part is taken against, as both programs spell it: the all-zero word. -/
abbrev zeroWord : EReal := Ideal.ofBits .f32 0x00000000#32

variable {a k b : ℕ}

/-! ## A projection with its rows scaled -/

/-- Entry (r, c) of x · w, times the r-th entry of the column n. -/
def projScaleAt (x : Mat a k) (w : Mat k b) (n : Mat a 1) (r : Fin a) (c : Fin b) : EReal :=
  (∑ j : Fin k, x (ix2 r j) * w (ix2 j c)) * n (ix2 r (0 : Fin 1))

/-- x · w with row r scaled by n r. -/
def projScale (x : Mat a k) (w : Mat k b) (n : Mat a 1) : Mat a b :=
  fun i => projScaleAt x w n (i 0) (i 1)

theorem projScale_ix2 (x : Mat a k) (w : Mat k b) (n : Mat a 1) (r : Fin a) (c : Fin b) :
    projScale x w n (ix2 r c) = projScaleAt x w n r c := rfl

/-- An entry of the scaled projection reads row r of x, column c of w and entry r of n, and nothing else of them. -/
theorem projScaleAt_congr {a' : ℕ} (x : Mat a k) (x' : Mat a' k) (w w' : Mat k b) (n : Mat a 1) (n' : Mat a' 1)
    (r : Fin a) (r' : Fin a') (c c' : Fin b)
    (hx : ∀ j : Fin k, x (ix2 r j) = x' (ix2 r' j)) (hw : ∀ j : Fin k, w (ix2 j c) = w' (ix2 j c'))
    (hn : n (ix2 r (0 : Fin 1)) = n' (ix2 r' (0 : Fin 1))) :
    projScaleAt x w n r c = projScaleAt x' w' n' r' c' := by
  unfold projScaleAt
  rw [hn]
  exact congrArg (· * n' (ix2 r' (0 : Fin 1))) (Finset.sum_congr rfl fun j _ => by rw [hx j, hw j])

/-! ## A layer's close fused with the next layer's opening -/

/-- Entry (r, c) of  relu(g ⊙ nd + b) · w, times the r-th entry of the column ns. -/
def reluProjScaleAt (g : Mat a k) (nd : Mat a 1) (bias : Mat 1 k) (w : Mat k b) (ns : Mat a 1) (r : Fin a) (c : Fin b) : EReal :=
  (∑ j : Fin k, max (g (ix2 r j) * nd (ix2 r (0 : Fin 1)) + bias (ix2 (0 : Fin 1) j)) zeroWord * w (ix2 j c))
    * ns (ix2 r (0 : Fin 1))

/-- relu(g ⊙ nd + b) · w with row r scaled by ns r. -/
def reluProjScale (g : Mat a k) (nd : Mat a 1) (bias : Mat 1 k) (w : Mat k b) (ns : Mat a 1) : Mat a b :=
  fun i => reluProjScaleAt g nd bias w ns (i 0) (i 1)

theorem reluProjScale_ix2 (g : Mat a k) (nd : Mat a 1) (bias : Mat 1 k) (w : Mat k b) (ns : Mat a 1) (r : Fin a) (c : Fin b) :
    reluProjScale g nd bias w ns (ix2 r c) = reluProjScaleAt g nd bias w ns r c := rfl

/-- It reads row r of g, entry r of each of the two columns, the bias row and column c of w. -/
theorem reluProjScaleAt_congr {a' : ℕ} (g : Mat a k) (g' : Mat a' k) (nd : Mat a 1) (nd' : Mat a' 1) (bias bias' : Mat 1 k)
    (w w' : Mat k b) (ns : Mat a 1) (ns' : Mat a' 1) (r : Fin a) (r' : Fin a') (c c' : Fin b)
    (hg : ∀ j : Fin k, g (ix2 r j) = g' (ix2 r' j)) (hnd : nd (ix2 r (0 : Fin 1)) = nd' (ix2 r' (0 : Fin 1)))
    (hb : ∀ j : Fin k, bias (ix2 (0 : Fin 1) j) = bias' (ix2 (0 : Fin 1) j)) (hw : ∀ j : Fin k, w (ix2 j c) = w' (ix2 j c'))
    (hns : ns (ix2 r (0 : Fin 1)) = ns' (ix2 r' (0 : Fin 1))) :
    reluProjScaleAt g nd bias w ns r c = reluProjScaleAt g' nd' bias' w' ns' r' c' := by
  unfold reluProjScaleAt
  rw [hns, hnd]
  exact congrArg (· * ns' (ix2 r' (0 : Fin 1))) (Finset.sum_congr rfl fun j _ => by rw [hg j, hb j, hw j])

/-! ## A layer's close -/

/-- Entry (r, c) of g ⊙ nd + b. -/
def scaleShiftAt (g : Mat a b) (nd : Mat a 1) (bias : Mat 1 b) (r : Fin a) (c : Fin b) : EReal :=
  g (ix2 r c) * nd (ix2 r (0 : Fin 1)) + bias (ix2 (0 : Fin 1) c)

/-- Row r of g scaled by nd r, the row b added. -/
def scaleShift (g : Mat a b) (nd : Mat a 1) (bias : Mat 1 b) : Mat a b :=
  fun i => scaleShiftAt g nd bias (i 0) (i 1)

theorem scaleShift_ix2 (g : Mat a b) (nd : Mat a 1) (bias : Mat 1 b) (r : Fin a) (c : Fin b) :
    scaleShift g nd bias (ix2 r c) = scaleShiftAt g nd bias r c := rfl

/-- It reads entry (r, c) of g, entry r of the column and entry c of the bias row. -/
theorem scaleShiftAt_congr {a' : ℕ} (g : Mat a b) (g' : Mat a' b) (nd : Mat a 1) (nd' : Mat a' 1) (bias bias' : Mat 1 b)
    (r : Fin a) (r' : Fin a') (c c' : Fin b)
    (hg : g (ix2 r c) = g' (ix2 r' c')) (hnd : nd (ix2 r (0 : Fin 1)) = nd' (ix2 r' (0 : Fin 1)))
    (hb : bias (ix2 (0 : Fin 1) c) = bias' (ix2 (0 : Fin 1) c')) :
    scaleShiftAt g nd bias r c = scaleShiftAt g' nd' bias' r' c' := by
  unfold scaleShiftAt
  rw [hg, hnd, hb]

end Cert.Gcn

end
-- ==== Proof.LibMatrixRead.lean ====
/-
  Layout operations of matrices read at an index given by coordinates, for the forms Lib/ValueLayout.lean leaves out:
  a vector made a column (`[a] → [a, 1]`), a column spread over the lanes (`[a, 1] → [a, b]`), three matrices of equal
  height laid side by side read at a column, and the rows of a matrix taken by an index column (`x[idx]` of a
  matrix: a gather with the first axis collapsed and start-indexed, the second an offset axis taken whole).
  Nothing here names a program.
-/
import Idealize.ShloMosaic.Lib.ValueLayout
import Idealize.ShloMosaic.Lib.StableHlo.Predicate

namespace Cert.MatrixRead

open Idealize.ShloMosaic Idealize.ShloMosaic.ValueIdx

variable {α : Type}

/-- The one coordinate of a rank-1 index is below the extent. -/
theorem idx1_lt {n : ℕ} (j : (⟨1, ![n]⟩ : Shape).Idx) : (j 0).val < n := (j 0).isLt

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Three matrices side by side -/

/-- Three `[n, 128]` matrices laid side by side along the second axis read, at `(r, k)`, the piece whose span of 128 columns
    holds `k`, at `k` less the columns before it. -/
theorem concat3_128_apply {n : ℕ} (x₁ x₂ x₃ : (⟨2, ![n, 128]⟩ : Shape).Idx → α)
    (h : Shape.Concatenates (([⟨⟨2, ![n, 128]⟩, x₁⟩, ⟨⟨2, ![n, 128]⟩, x₂⟩, ⟨⟨2, ![n, 128]⟩, x₃⟩] :
      List ((s : Shape) × (s.Idx → α))).map (·.1)) ⟨2, ![n, 384]⟩ 1)
    (r : Fin n) (k : Fin 384) :
    concatenate ⟨2, ![n, 384]⟩ 1 [⟨⟨2, ![n, 128]⟩, x₁⟩, ⟨⟨2, ![n, 128]⟩, x₂⟩, ⟨⟨2, ![n, 128]⟩, x₃⟩] h (ix2 r k)
      = if h1 : k.val < 128 then x₁ (ix2 r ⟨k.val, h1⟩)
        else if h2 : k.val < 256 then x₂ (ix2 r ⟨k.val - 128, by omega⟩)
        else x₃ (ix2 r ⟨k.val - 256, by have := k.isLt; omega⟩) := by
  have hk := k.isLt
  split
  · next h1 =>
    refine concatenate_apply_piece (1 : Fin 2) _ h (ix2 r k) 0 (by simp) ⟨2, ![n, 128]⟩ x₁ rfl rfl 0 rfl
      (ix2 r ⟨k.val, h1⟩) (fun b hb => ?_) ?_
    · match b with
      | ⟨0, _⟩ => rfl
      | ⟨1, _⟩ => exact absurd rfl hb
    · show 0 + k.val = k.val
      omega
  · next h1 =>
    split
    · next h2 =>
      refine concatenate_apply_piece (1 : Fin 2) _ h (ix2 r k) 1 (by simp) ⟨2, ![n, 128]⟩ x₂ rfl rfl 128 rfl
        (ix2 r ⟨k.val - 128, by omega⟩) (fun b hb => ?_) ?_
      · match b with
        | ⟨0, _⟩ => rfl
        | ⟨1, _⟩ => exact absurd rfl hb
      · show 128 + (k.val - 128) = k.val
        omega
    · next h2 =>
      refine concatenate_apply_piece (1 : Fin 2) _ h (ix2 r k) 2 (by simp) ⟨2, ![n, 128]⟩ x₃ rfl rfl 256 rfl
        (ix2 r ⟨k.val - 256, by omega⟩) (fun b hb => ?_) ?_
      · match b with
        | ⟨0, _⟩ => rfl
        | ⟨1, _⟩ => exact absurd rfl hb
      · show 256 + (k.val - 256) = k.val
        omega

/-! ## The rows of a matrix taken by an index column -/

/-- The gather that is `x[idx]` of an `[N, C]` matrix by an `[n, 1]` column of indices (first operand axis collapsed and
    start-indexed, the second an offset axis, the index vector on axis 1: the printed dimension numbers, each by `rfl`)
    reads, for result position `(p, c)`, operand ROW `idx[p]` read signed and held inside `0 … N - 1` … -/
theorem gather_rows_axis0 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (0 : Fin 2)).val = min (idx (ix2 p (0 : Fin 1))).toInt.toNat (N - 1) := by
  have hsl : d.sliceSizes 0 = 1 := d.slice_collapsed 0 (by rw [hcoll]; exact List.mem_singleton.mpr rfl)
  have hk : (0 : Fin 2) ∉ d.sKept := by rw [GatherDims.mem_sKept, hcoll]; simp
  obtain ⟨offD, collD, obD, sibD, simD, ivd, sl, wf⟩ := d
  simp only at hoff hcoll hob hsim hivd hsl
  subst hoff hcoll hob hsim hivd
  simp only [GatherDims.operandIdx, GatherDims.start, GatherDims.batchCoord, GatherDims.offCoord]
  simp only [GatherDims.mem_sKept, List.mem_singleton, List.not_mem_nil, dite_true, dite_false, not_true_eq_false, false_and, hsl, Nat.add_zero, List.append_nil, ↓reduceDIte]
  rw [dif_neg hk, Nat.add_zero]
  show min (idx _).toInt.toNat (N - 1) = _
  congr 4
  funext b
  apply Fin.ext
  match b with
  | ⟨0, _⟩ => rfl
  | ⟨1, _⟩ => rfl

/-- A one-element list read at any valid position is its element. -/
theorem getElem_singleton_any {β : Type} (b : β) (k : ℕ) (h : k < [b].length) : [b][k]'h = b := by
  have hk : k = 0 := by simpa using h
  subst hk; rfl

/-- … and operand COLUMN `c`: the offset axis is taken whole and nothing is added to it. -/
theorem gather_rows_axis1 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (1 : Fin 2)).val = c.val := by
  have hk : (1 : Fin 2) ∈ d.sKept := by rw [GatherDims.mem_sKept, hcoll, hob]; simp
  have hm : (1 : Fin 2) ∉ d.startIndexMap := by rw [hsim]; simp
  have hb : (1 : Fin 2) ∉ d.operandBatchingDims := by rw [hob]; simp
  obtain ⟨offD, collD, obD, sibD, simD, ivd, sl, wf⟩ := d
  simp only at hoff hcoll hob hsim hivd
  subst hoff hcoll hob hsim hivd
  simp only [GatherDims.operandIdx, GatherDims.start, GatherDims.batchCoord, GatherDims.offCoord]
  rw [dif_neg hm, dif_neg hb, dif_pos hk]
  simp only [Nat.zero_add]
  rw [getElem_singleton_any]
  rfl

/-- So the gathered matrix at `(p, c)` is the table at (the held row `idx[p]`, `c`): jnp's `x[idx]` with out-of-range
    positions held at the nearest row. -/
theorem gather_rows_apply {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  apply Fin.ext
  match a with
  | ⟨0, _⟩ => exact gather_rows_axis0 d hoff hcoll hob hsim hivd idx p c
  | ⟨1, _⟩ => exact gather_rows_axis1 d hoff hcoll hob hsim hivd idx p c

end Cert.MatrixRead
-- ==== Proof.KerPayloads.lean ====
/-
  What each kernel body stores, at an entry of the block. The three bodies are pure functions of the blocks they load;
  read at the extended reals a change of float format is the identity, the matrix unit's product into a zero
  accumulator is the sum over the contracted index, a column spread over the lanes is read at its row, and a row spread
  down the rows at its lane. So entry (p, q) of each body's store is the specification's entry of the loaded blocks:
  the body computes, on a block of rows, exactly the dense stage it belongs to.
-/
import proofs.«152995_j71339406787240_1_alg».proof.Proof.Gen.KernelIdeal.Skeleton
import proofs.«152995_j71339406787240_1_alg».proof.Proof.Spec
import proofs.«152995_j71339406787240_1_alg».proof.Proof.LibMatrixRead
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Ker

open Cert.KernelIdeal Cert.KernelIdeal.Gen Idealize.ShloMosaic Idealize.ShloMosaic.TcCoe Idealize.ShloMosaic.ValueIdx Cert.Gcn

/-! ## The two matrix products at an entry

The operand positions of the contraction [1] × [0], axis by axis, and the product into the zero accumulator as the sum
over the contracted index. -/

theorem lhs_mm0_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_mm0_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_mm0_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_mm0_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- Entry (p, q) of the first body's product of a 10000 × 32 block with the 32 × 64 weights. -/
theorem matmul_mm0_apply {φ₁ φ₂ : FTy} (l : FVec Ideal S10000x32 φ₁) (r : FVec Ideal S32x64 φ₂) (p : Fin 10000) (q : Fin 64) :
    matmul dot_S10000x32_S32x64_S10000x64_1_0_0_1_n_n none l r (constant S10000x64 .f32 0x00000000#32) (ix2 p q) = ∑ k : Fin 32, l (ix2 p k) * r (ix2 k q) := by
  show FloatOps.matmul dot_S10000x32_S32x64_S10000x64_1_0_0_1_n_n none l r (constant S10000x64 .f32 0x00000000#32) (ix2 p q) = _
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx (ix2 p q) ((ValueIdx.contrEquiv1 dot_S10000x32_S32x64_S10000x64_1_0_0_1_n_n 32 rfl rfl).symm k) = ix2 p k := funext fun a => Fin.ext (by
    match a with
    | ⟨0, _⟩ => exact lhs_mm0_0 _ _
    | ⟨1, _⟩ => exact (lhs_mm0_1 _ _).trans hk)
  have er : dot_S10000x32_S32x64_S10000x64_1_0_0_1_n_n.rhsIdx (ix2 p q) ((ValueIdx.contrEquiv1 dot_S10000x32_S32x64_S10000x64_1_0_0_1_n_n 32 rfl rfl).symm k) = ix2 k q := funext fun a => Fin.ext (by
    match a with
    | ⟨0, _⟩ => exact (rhs_mm0_0 _ _).trans hk
    | ⟨1, _⟩ => exact rhs_mm0_1 _ _)
  rw [el, er]

theorem lhs_mm1_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_mm1_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_mm1_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_mm1_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of the second body's product of a 10000 × 64 block with the 64 × 64 weights. -/
theorem matmul_mm1_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q) = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_mm1_0 _ _
    | ⟨1, _⟩ => exact (lhs_mm1_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_mm1_0 _ _).trans hk
    | ⟨1, _⟩ => exact rhs_mm1_1 _ _)
  rw [el, er]

/-! ## Layout pieces -/

/-- A column of the block spread over the 64 lanes, at (p, q): its entry of row p. -/
theorem column_apply (v : FVec Ideal S10000x1 .f32) (p : Fin 10000) (q : Fin 64) :
    broadcastTo S10000x64 (shapeCast S10000x1 v shapeCasts_S10000x1_S10000x1) broadcasts_S10000x1_S10000x64 (ix2 p q)
      = v (ix2 p (0 : Fin 1)) := by
  rw [shapeCast_self]
  exact Cert.MatrixRead.broadcastTo_a1_ab_apply v broadcasts_S10000x1_S10000x64 p q

/-- The one-row operand spread down the 10000 rows, at (p, q): its entry of lane q. -/
theorem row_apply (v : FVec Ideal S1x64 .f32) (p : Fin 10000) (q : Fin 64) :
    broadcastTo S10000x64 (shapeCast S1x64 v shapeCasts_S1x64_S1x64) broadcasts_S1x64_S10000x64 (ix2 p q)
      = v (ix2 (0 : Fin 1) q) := by
  rw [shapeCast_self]
  exact broadcastTo_1b_ab_apply v broadcasts_S1x64_S10000x64 p q

/-! ## The three stores -/

/-- The first body stores, at (p, q), the block's projection scaled by the block's column. -/
theorem store0_apply (x0 : Vec Ideal S10000x32 .f32) (x1 : Vec Ideal S32x64 .f32) (x2 : Vec Ideal S10000x1 .f32)
    (p : Fin 10000) (q : Fin 64) :
    k0_pay1 (F := Ideal) x0 x1 x2 (ix2 p q) = projScaleAt x0 x1 x2 p q := by
  unfold k0_pay1 projScaleAt
  rw [mulf_apply, matmul_mm0_apply, column_apply]
  rfl

/-- The second body stores, at (p, q): the block scaled by its in-degree column, the bias row added, the positive part,
    projected and scaled by the out-degree column. -/
theorem store1_apply (x0 : Vec Ideal S10000x64 .f32) (x1 : Vec Ideal S10000x1 .f32) (x2 : Vec Ideal S1x64 .f32)
    (x3 : Vec Ideal S64x64 .f32) (x4 : Vec Ideal S10000x1 .f32) (p : Fin 10000) (q : Fin 64) :
    k1_pay1 (F := Ideal) x0 x1 x2 x3 x4 (ix2 p q) = reluProjScaleAt x0 x1 x2 x3 x4 p q := by
  unfold k1_pay1 reluProjScaleAt
  rw [mulf_apply, matmul_mm1_apply, column_apply]
  refine congrArg (· * x4 (ix2 p (0 : Fin 1))) (Finset.sum_congr rfl fun j _ => ?_)
  rw [truncf_apply, truncf_apply, maximumf_apply, addf_apply, mulf_apply, column_apply, row_apply, shapeCast_self, broadcast_apply]
  rfl

/-- The third body stores, at (p, q): the block scaled by its in-degree column, the bias row added. -/
theorem store2_apply (x0 : Vec Ideal S10000x64 .f32) (x1 : Vec Ideal S10000x1 .f32) (x2 : Vec Ideal S1x64 .f32)
    (p : Fin 10000) (q : Fin 64) :
    k2_pay1 (F := Ideal) x0 x1 x2 (ix2 p q) = scaleShiftAt x0 x1 x2 p q := by
  unfold k2_pay1 scaleShiftAt
  rw [addf_apply, mulf_apply, column_apply, row_apply, shapeCast_self]

end Cert.Gcn.Ker

end
-- ==== Proof.KerRegion0.lean ====
/-
  REGION 0 leaves, in its output array, the scaled projection of its three input arrays — whatever those arrays hold
  when the region is entered. The grid has ten points; point t works on rows 10000·t … 10000·t + 9999 of the tall
  operands (the 100000 × 32 features, the 100000 × 1 out-degree column, the 100000 × 64 output) and on the whole of the
  32 × 64 weights. What point t writes back is the body's store of the blocks it loaded; an entry of that store is the
  specification's entry of the blocks, which reads one row of each tall block, that is row 10000·t + p of the arrays:
  the block of the whole arrays' function. The ten row blocks tile the output, so the array ends holding the function.
-/
import proofs.«152995_j71339406787240_1_alg».proof.Proof.Gen.KernelIdeal.Frame
import proofs.«152995_j71339406787240_1_alg».proof.Proof.KerPayloads

set_option maxRecDepth 16384

noncomputable section

namespace Cert.Gcn.Ker

open Cert.KernelIdeal Cert.KernelIdeal.Gen Idealize.ShloMosaic Idealize.ShloMosaic.TcCoe Idealize.ShloMosaic.ValueIdx Cert.Gcn
open Idealize.SL.Sem
open Idealize.ShloMosaic.Pipeline (Dat)

-- the buffers' contents when the region is entered
variable (V : (c : Dev nD) → (b : Ref sig .tc) → Buf (Elt Ideal) ((c : Thread nD τ).loc b))

/-- The body's accesses all start at the origin of their staging buffers. -/
theorem origin2 : (![0, 0] : Fin 2 → Nat) = fun _ => 0 := funext fun a => by fin_cases a <;> rfl

/-- The index maps over the ten points: a tall operand's row block is the point's number, every column block and the
    weights' block are 0. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's store, as an array over the block: the specification's function of the loaded blocks. -/
theorem store0_eq (x0 : Vec Ideal S10000x32 .f32) (x1 : Vec Ideal S32x64 .f32) (x2 : Vec Ideal S10000x1 .f32) :
    k0_pay1 (F := Ideal) x0 x1 x2 = projScale x0 x1 x2 := by
  funext j
  obtain ⟨p, q, rfl⟩ : ∃ (p : Fin 10000) (q : Fin 64), j = ix2 p q := ⟨j 0, j 1, eq_ix2 j⟩
  exact store0_apply x0 x1 x2 p q

/-- WHAT POINT t WRITES BACK is block t of the scaled projection of the arrays as the region finds them. -/
theorem flushed0 (c : Dev nD) (t : Fin cfg0.N) :
    (dat0 V c).flushed 3 t = ((cfg0.win 3).blk t).view.read (Elt Ideal)
      (projScale (V c main_arg0) (V c main_arg3) (V c main_v11)) := by
  show (cfg0.win 3).cut (grid0.coords t) ((dat0 V c).after 3 t) = _
  rw [after0_3]
  unfold out0_3
  rw [View.canon_unit_zero origin2]
  simp only [View.ld_unit_zero (S := S10000x32) origin2, View.ld_unit_zero (S := S32x64) origin2, View.ld_unit_zero (S := S10000x1) origin2]
  obtain ⟨e00, e01, e10, e11, e20, e21, e30, e31⟩ := blocks0 t
  funext j
  show k0_pay1 (F := Ideal) (iblk0 V c 0 t) (iblk0 V c 1 t) (iblk0 V c 2 t) j
    = projScale (V c main_arg0) (V c main_arg3) (V c main_v11) (((cfg0.win 3).blk t).view.emb j)
  refine (congrFun (store0_eq (iblk0 V c 0 t) (iblk0 V c 1 t) (iblk0 V c 2 t)) j).trans ?_
  have hj0 : (j 0).val < 10000 := (j 0).isLt
  have hj1 : (j 1).val < 64 := (j 1).isLt
  refine projScaleAt_congr (iblk0 V c 0 t) (V c main_arg0) (iblk0 V c 1 t) (V c main_arg3) (iblk0 V c 2 t) (V c main_v11)
    (j 0) ((((cfg0.win 3).blk t).view.emb j) 0) (j 1) ((((cfg0.win 3).blk t).view.emb j) 1) (fun k => ?_) (fun k => ?_) ?_
  · -- a feature row of the block is the array's row 10000·t + p
    show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 32 + 1 * k.val = k.val; omega
  · -- the weights' one block is the weights
    show V c main_arg3 (((cfg0.win 1).blk t).view.emb (ix2 k (j 1))) = V c main_arg3 (ix2 k ((((cfg0.win 3).blk t).view.emb j) 1))
    refine congrArg (V c main_arg3) (funext fun a => Fin.ext ?_)
    match a with
    | ⟨0, _⟩ => show win0_1.index t (0 : Fin 2) * 32 + 1 * k.val = k.val; omega
    | ⟨1, _⟩ => show win0_1.index t (1 : Fin 2) * 64 + 1 * (j 1).val = win0_3.index t (1 : Fin 2) * 64 + 1 * (j 1).val; omega
  · -- the column's entry of the block's row is the array's entry of row 10000·t + p
    show V c main_v11 (((cfg0.win 2).blk t).view.emb (ix2 (j 0) (0 : Fin 1))) = V c main_v11 (ix2 ((((cfg0.win 3).blk t).view.emb j) 0) (0 : Fin 1))
    refine congrArg (V c main_v11) (funext fun a => Fin.ext ?_)
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega

/-- An index of the output array is in point t's block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v14).slice (win0_3.rect t)).set ↔ _
  rw [View.set_slice_whole, Rect.mem_set_unit]
  exact Iff.rfl

/-- The ten row blocks tile the output: row r lies in the block of point r / 10000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨e00, e01, e10, e11, e20, e21, e30, e31⟩ := blocks0 t
  have ht : t.val = (i 0).val / 10000 := rfl
  refine ⟨t, flush0_3 t, ?_⟩
  rw [mem_block0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after region 0: the scaled projection of the arrays the region was entered with. -/
theorem final0 (c : Dev nD) :
    (dat0 V c).arrAt 3 cfg0.N = projScale (V c main_arg0) (V c main_arg3) (V c main_v11) :=
  (dat0 V c).arrAt_eq_of_cover 3 _ (fun t _ => flushed0 V c t) cover0

end Cert.Gcn.Ker

end
-- ==== Proof.KerRegion1.lean ====
/-
  REGION 1 leaves, in its output array, the first layer's close fused with the second layer's opening: of the arrays it
  is entered with — the 100000 × 64 aggregate, the in-degree column, the 1 × 64 bias row, the 64 × 64 weights and the
  out-degree column — row r of the aggregate is scaled by the in-degree factor of node r, the bias added, the positive
  part taken, and the result projected by the weights and scaled by the out-degree factor of node r. Point t of the ten
  works on rows 10000·t … 10000·t + 9999 of the three tall operands and of the output, and on the whole of the bias row
  and of the weights; an entry of what it stores reads its own row of the tall blocks only, so it is the entry of the
  whole arrays' function at row 10000·t + p. The ten row blocks tile the output.
-/
import proofs.«152995_j71339406787240_1_alg».proof.Proof.Gen.KernelIdeal.Frame
import proofs.«152995_j71339406787240_1_alg».proof.Proof.KerPayloads

set_option maxRecDepth 16384

noncomputable section

namespace Cert.Gcn.Ker

open Cert.KernelIdeal Cert.KernelIdeal.Gen Idealize.ShloMosaic Idealize.ShloMosaic.TcCoe Idealize.ShloMosaic.ValueIdx Cert.Gcn
open Idealize.SL.Sem
open Idealize.ShloMosaic.Pipeline (Dat)

-- the buffers' contents when the region is entered
variable (V : (c : Dev nD) → (b : Ref sig .tc) → Buf (Elt Ideal) ((c : Thread nD τ).loc b))

/-- The body's accesses all start at the origin of their staging buffers. -/
theorem origin2' : (![0, 0] : Fin 2 → Nat) = fun _ => 0 := funext fun a => by fin_cases a <;> rfl

/-- The index maps over the ten points: a tall operand's row block is the point's number; every column block, the bias
    row's block and the weights' block are 0. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The body's store, as an array over the block: the specification's function of the loaded blocks. -/
theorem store1_eq (x0 : Vec Ideal S10000x64 .f32) (x1 : Vec Ideal S10000x1 .f32) (x2 : Vec Ideal S1x64 .f32)
    (x3 : Vec Ideal S64x64 .f32) (x4 : Vec Ideal S10000x1 .f32) :
    k1_pay1 (F := Ideal) x0 x1 x2 x3 x4 = reluProjScale x0 x1 x2 x3 x4 := by
  funext j
  obtain ⟨p, q, rfl⟩ : ∃ (p : Fin 10000) (q : Fin 64), j = ix2 p q := ⟨j 0, j 1, eq_ix2 j⟩
  exact store1_apply x0 x1 x2 x3 x4 p q

/-- WHAT POINT t WRITES BACK is block t of the fused stage of the arrays as the region finds them. -/
theorem flushed1 (c : Dev nD) (t : Fin cfg1.N) :
    (dat1 V c).flushed 5 t = ((cfg1.win 5).blk t).view.read (Elt Ideal)
      (reluProjScale (V c main_v24) (V c main_v13) (V c main_v25) (V c main_arg5) (V c main_v11)) := by
  show (cfg1.win 5).cut (grid1.coords t) ((dat1 V c).after 5 t) = _
  rw [after1_5]
  unfold out1_5
  rw [View.canon_unit_zero origin2']
  simp only [View.ld_unit_zero (S := S10000x64) origin2', View.ld_unit_zero (S := S10000x1) origin2', View.ld_unit_zero (S := S1x64) origin2',
    View.ld_unit_zero (S := S64x64) origin2']
  obtain ⟨e00, e01, e10, e11, e20, e21, e30, e31, e40, e41, e50, e51⟩ := blocks1 t
  funext j
  show k1_pay1 (F := Ideal) (iblk1 V c 0 t) (iblk1 V c 1 t) (iblk1 V c 2 t) (iblk1 V c 3 t) (iblk1 V c 4 t) j
    = reluProjScale (V c main_v24) (V c main_v13) (V c main_v25) (V c main_arg5) (V c main_v11) (((cfg1.win 5).blk t).view.emb j)
  refine (congrFun (store1_eq (iblk1 V c 0 t) (iblk1 V c 1 t) (iblk1 V c 2 t) (iblk1 V c 3 t) (iblk1 V c 4 t)) j).trans ?_
  have hj0 : (j 0).val < 10000 := (j 0).isLt
  have hj1 : (j 1).val < 64 := (j 1).isLt
  refine reluProjScaleAt_congr (iblk1 V c 0 t) (V c main_v24) (iblk1 V c 1 t) (V c main_v13) (iblk1 V c 2 t) (V c main_v25)
    (iblk1 V c 3 t) (V c main_arg5) (iblk1 V c 4 t) (V c main_v11)
    (j 0) ((((cfg1.win 5).blk t).view.emb j) 0) (j 1) ((((cfg1.win 5).blk t).view.emb j) 1) (fun k => ?_) ?_ (fun k => ?_) (fun k => ?_) ?_
  · -- a row of the aggregate's block is the array's row 10000·t + p
    show V c main_v24 (((cfg1.win 0).blk t).view.emb (ix2 (j 0) k)) = V c main_v24 (ix2 ((((cfg1.win 5).blk t).view.emb j) 0) k)
    refine congrArg (V c main_v24) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · -- the in-degree column's entry of the block's row
    show V c main_v13 (((cfg1.win 1).blk t).view.emb (ix2 (j 0) (0 : Fin 1))) = V c main_v13 (ix2 ((((cfg1.win 5).blk t).view.emb j) 0) (0 : Fin 1))
    refine congrArg (V c main_v13) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 1 + 1 * 0 = 0; omega
  · -- the bias row's one block is the bias row
    show V c main_v25 (((cfg1.win 2).blk t).view.emb (ix2 (0 : Fin 1) k)) = V c main_v25 (ix2 (0 : Fin 1) k)
    refine congrArg (V c main_v25) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · -- the weights' one block is the weights
    show V c main_arg5 (((cfg1.win 3).blk t).view.emb (ix2 k (j 1))) = V c main_arg5 (ix2 k ((((cfg1.win 5).blk t).view.emb j) 1))
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  · -- the out-degree column's entry of the block's row
    show V c main_v11 (((cfg1.win 4).blk t).view.emb (ix2 (j 0) (0 : Fin 1))) = V c main_v11 (ix2 ((((cfg1.win 5).blk t).view.emb j) 0) (0 : Fin 1))
    refine congrArg (V c main_v11) (funext fun a => Fin.ext ?_)
    match a with
    | ⟨0, _⟩ => show win1_4.index t (0 : Fin 2) * 10000 + 1 * (j 0).val = win1_5.index t (0 : Fin 2) * 10000 + 1 * (j 0).val; omega
    | ⟨1, _⟩ => show win1_4.index t (1 : Fin 2) * 1 + 1 * 0 = 0; omega

/-- An index of the output array is in point t's block iff each coordinate is in the block's range on its axis. -/
theorem mem_block1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v26).slice (win1_5.rect t)).set ↔ _
  rw [View.set_slice_whole, Rect.mem_set_unit]
  exact Iff.rfl

/-- The ten row blocks tile the output: row r lies in the block of point r / 10000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 10000, by show (i 0).val / 10000 < 10; omega⟩
  obtain ⟨e00, e01, e10, e11, e20, e21, e30, e31, e40, e41, e50, e51⟩ := blocks1 t
  have ht : t.val = (i 0).val / 10000 := rfl
  refine ⟨t, flush1_5 t, ?_⟩
  rw [mem_block1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after region 1: the fused stage of the arrays the region was entered with. -/
theorem final1 (c : Dev nD) :
    (dat1 V c).arrAt 5 cfg1.N = reluProjScale (V c main_v24) (V c main_v13) (V c main_v25) (V c main_arg5) (V c main_v11) :=
  (dat1 V c).arrAt_eq_of_cover 5 _ (fun t _ => flushed1 V c t) cover1

end Cert.Gcn.Ker

end
-- ==== Proof.KerRegion2.lean ====
/-
  REGION 2 leaves, in its output array, the second layer's close: row r of the 100000 × 64 aggregate it is entered with
  scaled by the in-degree factor of node r, the 1 × 64 bias row added. Point t of the ten works on rows
  10000·t … 10000·t + 9999 of the aggregate, of the in-degree column and of the output, and on the whole bias row; an
  entry of what it stores is the entry of the whole arrays' function at row 10000·t + p. The ten row blocks tile the
  output.
-/
import proofs.«152995_j71339406787240_1_alg».proof.Proof.Gen.KernelIdeal.Frame
import proofs.«152995_j71339406787240_1_alg».proof.Proof.KerPayloads

set_option maxRecDepth 16384

noncomputable section

namespace Cert.Gcn.Ker

open Cert.KernelIdeal Cert.KernelIdeal.Gen Idealize.ShloMosaic Idealize.ShloMosaic.TcCoe Idealize.ShloMosaic.ValueIdx Cert.Gcn
open Idealize.SL.Sem
open Idealize.ShloMosaic.Pipeline (Dat)

-- the buffers' contents when the region is entered
variable (V : (c : Dev nD) → (b : Ref sig .tc) → Buf (Elt Ideal) ((c : Thread nD τ).loc b))

/-- The body's accesses all start at the origin of their staging buffers. -/
theorem origin2'' : (![0, 0] : Fin 2 → Nat) = fun _ => 0 := funext fun a => by fin_cases a <;> rfl

/-- The index maps over the ten points: a tall operand's row block is the point's number; every column block and the
    bias row's block are 0. -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's store, as an array over the block: the specification's function of the loaded blocks. -/
theorem store2_eq (x0 : Vec Ideal S10000x64 .f32) (x1 : Vec Ideal S10000x1 .f32) (x2 : Vec Ideal S1x64 .f32) :
    k2_pay1 (F := Ideal) x0 x1 x2 = scaleShift x0 x1 x2 := by
  funext j
  obtain ⟨p, q, rfl⟩ : ∃ (p : Fin 10000) (q : Fin 64), j = ix2 p q := ⟨j 0, j 1, eq_ix2 j⟩
  exact store2_apply x0 x1 x2 p q

/-- WHAT POINT t WRITES BACK is block t of the closing stage of the arrays as the region finds them. -/
theorem flushed2 (c : Dev nD) (t : Fin cfg2.N) :
    (dat2 V c).flushed 3 t = ((cfg2.win 3).blk t).view.read (Elt Ideal)
      (scaleShift (V c main_v36) (V c main_v13) (V c main_v37)) := by
  show (cfg2.win 3).cut (grid2.coords t) ((dat2 V c).after 3 t) = _
  rw [after2_3]
  unfold out2_3
  rw [View.canon_unit_zero origin2'']
  simp only [View.ld_unit_zero (S := S10000x64) origin2'', View.ld_unit_zero (S := S10000x1) origin2'', View.ld_unit_zero (S := S1x64) origin2'']
  obtain ⟨e00, e01, e10, e11, e20, e21, e30, e31⟩ := blocks2 t
  funext j
  show k2_pay1 (F := Ideal) (iblk2 V c 0 t) (iblk2 V c 1 t) (iblk2 V c 2 t) j
    = scaleShift (V c main_v36) (V c main_v13) (V c main_v37) (((cfg2.win 3).blk t).view.emb j)
  refine (congrFun (store2_eq (iblk2 V c 0 t) (iblk2 V c 1 t) (iblk2 V c 2 t)) j).trans ?_
  have hj0 : (j 0).val < 10000 := (j 0).isLt
  have hj1 : (j 1).val < 64 := (j 1).isLt
  refine scaleShiftAt_congr (iblk2 V c 0 t) (V c main_v36) (iblk2 V c 1 t) (V c main_v13) (iblk2 V c 2 t) (V c main_v37)
    (j 0) ((((cfg2.win 3).blk t).view.emb j) 0) (j 1) ((((cfg2.win 3).blk t).view.emb j) 1) ?_ ?_ ?_
  · -- an entry of the aggregate's block is the array's entry of row 10000·t + p
    show V c main_v36 (((cfg2.win 0).blk t).view.emb (ix2 (j 0) (j 1)))
      = V c main_v36 (ix2 ((((cfg2.win 3).blk t).view.emb j) 0) ((((cfg2.win 3).blk t).view.emb j) 1))
    refine congrArg (V c main_v36) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * (j 1).val = win2_3.index t (1 : Fin 2) * 64 + 1 * (j 1).val; omega
  · -- the in-degree column's entry of the block's row
    show V c main_v13 (((cfg2.win 1).blk t).view.emb (ix2 (j 0) (0 : Fin 1))) = V c main_v13 (ix2 ((((cfg2.win 3).blk t).view.emb j) 0) (0 : Fin 1))
    refine congrArg (V c main_v13) (funext fun a => Fin.ext ?_)
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  · -- the bias row's one block is the bias row
    show V c main_v37 (((cfg2.win 2).blk t).view.emb (ix2 (0 : Fin 1) (j 1))) = V c main_v37 (ix2 (0 : Fin 1) ((((cfg2.win 3).blk t).view.emb j) 1))
    refine congrArg (V c main_v37) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

/-- An index of the output array is in point t's block iff each coordinate is in the block's range on its axis. -/
theorem mem_block2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v38).slice (win2_3.rect t)).set ↔ _
  rw [View.set_slice_whole, Rect.mem_set_unit]
  exact Iff.rfl

/-- The ten row blocks tile the output: row r lies in the block of point r / 10000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, by show (i 0).val / 10000 < 10; omega⟩
  obtain ⟨e00, e01, e10, e11, e20, e21, e30, e31⟩ := blocks2 t
  have ht : t.val = (i 0).val / 10000 := rfl
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE OUTPUT ARRAY after region 2: the closing stage of the arrays the region was entered with. -/
theorem final2 (c : Dev nD) :
    (dat2 V c).arrAt 3 cfg2.N = scaleShift (V c main_v36) (V c main_v13) (V c main_v37) :=
  (dat2 V c).arrAt_eq_of_cover 3 _ (fun t _ => flushed2 V c t) cover2

end Cert.Gcn.Ker

end
-- ==== Proof.RefStages.lean ====
/-
  The reference's three dense stages are the specification's functions. Read one operation at a time, the reference
  computes: the product feat · W1 times the out-degree column broadcast over the lanes; after the sparse aggregation,
  the in-degree column broadcast and multiplied in, the bias row broadcast and added, the maximum with a zero splat,
  the product with W2, the out-degree column again; and after the second aggregation the in-degree column and the
  second bias row. Entry (r, c) of each is the specification's entry: a product with a column broadcast over the lanes
  reads the column at (r, 0), a row broadcast down the rows reads it at (0, c), and the host's contraction of axis 1
  against axis 0 is the sum over the shared index.
-/
import proofs.«152995_j71339406787240_1_alg».proof.Proof.Gen.ReferenceIdeal.Read
import proofs.«152995_j71339406787240_1_alg».proof.Proof.Spec

noncomputable section

namespace Cert.Gcn.Ref

open Cert.ReferenceIdeal Cert.ReferenceIdeal.Read Idealize.ShloMosaic Idealize.ShloMosaic.TcCoe Idealize.ShloMosaic.ValueIdx Cert.Gcn

/-! ## The index maps the read lemmas name, at explicit coordinates -/

theorem lidx12 (r : Fin 100000) (c : Fin 64) (k : Fin 32) : lidx_main_v12 (ix2 r c) k = ix2 r k :=
  funext fun a => Fin.ext (by match a with | ⟨0, _⟩ => rfl | ⟨1, _⟩ => rfl)
theorem ridx12 (r : Fin 100000) (c : Fin 64) (k : Fin 32) : ridx_main_v12 (ix2 r c) k = ix2 k c :=
  funext fun a => Fin.ext (by match a with | ⟨0, _⟩ => rfl | ⟨1, _⟩ => rfl)
theorem lidx33 (r : Fin 100000) (c : Fin 64) (k : Fin 64) : lidx_main_v33 (ix2 r c) k = ix2 r k :=
  funext fun a => Fin.ext (by match a with | ⟨0, _⟩ => rfl | ⟨1, _⟩ => rfl)
theorem ridx33 (r : Fin 100000) (c : Fin 64) (k : Fin 64) : ridx_main_v33 (ix2 r c) k = ix2 k c :=
  funext fun a => Fin.ext (by match a with | ⟨0, _⟩ => rfl | ⟨1, _⟩ => rfl)
/-- A column broadcast over the lanes is read at (r, 0). -/
theorem idx14 (r : Fin 100000) (c : Fin 64) : idx_main_v14 (ix2 r c) = ix2 r (0 : Fin 1) :=
  funext fun a => Fin.ext (by match a with | ⟨0, _⟩ => rfl | ⟨1, _⟩ => rfl)
theorem idx27 (r : Fin 100000) (c : Fin 64) : idx_main_v27 (ix2 r c) = ix2 r (0 : Fin 1) :=
  funext fun a => Fin.ext (by match a with | ⟨0, _⟩ => rfl | ⟨1, _⟩ => rfl)
theorem idx35 (r : Fin 100000) (c : Fin 64) : idx_main_v35 (ix2 r c) = ix2 r (0 : Fin 1) :=
  funext fun a => Fin.ext (by match a with | ⟨0, _⟩ => rfl | ⟨1, _⟩ => rfl)
theorem idx48 (r : Fin 100000) (c : Fin 64) : idx_main_v48 (ix2 r c) = ix2 r (0 : Fin 1) :=
  funext fun a => Fin.ext (by match a with | ⟨0, _⟩ => rfl | ⟨1, _⟩ => rfl)
/-- A row broadcast down the rows is read at (0, c). -/
theorem idx30 (r : Fin 100000) (c : Fin 64) : idx_main_v30 (ix2 r c) = ix2 (0 : Fin 1) c :=
  funext fun a => Fin.ext (by match a with | ⟨0, _⟩ => rfl | ⟨1, _⟩ => rfl)
theorem idx51 (r : Fin 100000) (c : Fin 64) : idx_main_v51 (ix2 r c) = ix2 (0 : Fin 1) c :=
  funext fun a => Fin.ext (by match a with | ⟨0, _⟩ => rfl | ⟨1, _⟩ => rfl)

/-! ## The stages -/

/-- The first layer's message before aggregation: feat · W1 with row r scaled by the out-degree factor of node r. -/
theorem stage_in (x0 : (⟨S100000x32, .f32⟩ : BufTy).Contents (Elt Ideal)) (x1 : (⟨S1600000, .i32⟩ : BufTy).Contents (Elt Ideal))
    (x3 : (⟨S32x64, .f32⟩ : BufTy).Contents (Elt Ideal)) :
    val_main_v15 (F := Ideal) x0 x1 x3 = projScale x0 x3 (val_main_v13 (F := Ideal) x1) := by
  funext i
  obtain ⟨r, c, rfl⟩ : ∃ (r : Fin 100000) (c : Fin 64), i = ix2 r c := ⟨i 0, i 1, eq_ix2 i⟩
  rw [projScale_ix2, val_main_v15_apply, val_main_v12_apply, val_main_v14_apply, idx14]
  unfold projScaleAt
  simp only [lidx12, ridx12, Ideal.mulf_def]

/-- The second layer's message before aggregation: the first layer's aggregate closed (in-degree scale, bias, positive
    part), projected by W2 and scaled by the out-degree factor. -/
theorem stage_mid (x0 : (⟨S100000x32, .f32⟩ : BufTy).Contents (Elt Ideal)) (x1 x2 : (⟨S1600000, .i32⟩ : BufTy).Contents (Elt Ideal))
    (x3 : (⟨S32x64, .f32⟩ : BufTy).Contents (Elt Ideal)) (x4 : (⟨S64, .f32⟩ : BufTy).Contents (Elt Ideal))
    (x5 : (⟨S64x64, .f32⟩ : BufTy).Contents (Elt Ideal)) :
    val_main_v36 (F := Ideal) x0 x1 x2 x3 x4 x5
      = reluProjScale (val_main_v25 (F := Ideal) x0 x1 x2 x3) (val_main_v26 (F := Ideal) x2) (val_main_v29 (F := Ideal) x4) x5
          (val_main_v34 (F := Ideal) x1) := by
  funext i
  obtain ⟨r, c, rfl⟩ : ∃ (r : Fin 100000) (c : Fin 64), i = ix2 r c := ⟨i 0, i 1, eq_ix2 i⟩
  rw [reluProjScale_ix2, val_main_v36_apply, val_main_v33_apply, val_main_v35_apply, idx35]
  unfold reluProjScaleAt
  rw [Ideal.mulf_def]
  refine congrArg (· * val_main_v34 (F := Ideal) x1 (ix2 r (0 : Fin 1))) (Finset.sum_congr rfl fun j _ => ?_)
  rw [lidx33, ridx33, val_main_v32_apply, val_main_v31_apply, val_main_v28_apply, val_main_v27_apply, idx27, val_main_v30_apply,
    idx30, val_main_call0_v0_apply, val_main_call0_cst_apply]
  rfl

/-- The result before the leading unit axis: the second aggregate closed (in-degree scale, bias). -/
theorem stage_out (x0 : (⟨S100000x32, .f32⟩ : BufTy).Contents (Elt Ideal)) (x1 x2 : (⟨S1600000, .i32⟩ : BufTy).Contents (Elt Ideal))
    (x3 : (⟨S32x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v52 (F := Ideal) x0 x1 x2 x3 x4 x5 x6
      = scaleShift (val_main_v46 (F := Ideal) x0 x1 x2 x3 x4 x5) (val_main_v47 (F := Ideal) x2) (val_main_v50 (F := Ideal) x6) := by
  funext i
  obtain ⟨r, c, rfl⟩ : ∃ (r : Fin 100000) (c : Fin 64), i = ix2 r c := ⟨i 0, i 1, eq_ix2 i⟩
  rw [scaleShift_ix2, val_main_v52_apply, val_main_v49_apply, val_main_v48_apply, idx48, val_main_v51_apply, idx51]
  unfold scaleShiftAt
  simp only [Ideal.mulf_def, Ideal.addf_def]

end Cert.Gcn.Ref

end
-- ==== Proof.Columns.lean ====
/-
  A vector made a column, and a vector made a one-row matrix, each written two ways. The kernel's program RESHAPES the
  vector ([a] → [a, 1], [b] → [1, b]); the reference BROADCASTS it along the kept axis into the same shape. Entry (r, 0)
  of either column is entry r of the vector, entry (0, c) of either row is entry c: the two spellings are one array.
  Nothing here names a program.
-/
import proofs.«152995_j71339406787240_1_alg».proof.Proof.LibMatrixRead
import Idealize.ShloMosaic.Lib.Pipeline.Value
import Idealize.ShloMosaic.Lib.ValueLayout

namespace Cert.Gcn

open Idealize.ShloMosaic Idealize.ShloMosaic.ValueIdx

variable {α : Type}

/-- The reshape of a vector to a column is its broadcast along axis 0 into the column's shape. -/
theorem column_reshape_eq_broadcast {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext i
  obtain ⟨r, u, rfl⟩ : ∃ (r : Fin a) (u : Fin 1), i = ix2 r u := ⟨i 0, i 1, eq_ix2 i⟩
  rw [Cert.MatrixRead.shapeCast_a_a1_apply]
  refine (broadcastInDim_apply ![0] h' v (ix2 r u) (ix1 r) fun ax => ?_).symm
  match ax with
  | ⟨0, _⟩ =>
    show r.val = if a = 1 then 0 else r.val
    split
    · have := r.isLt; omega
    · rfl

/-- The reshape of a vector to a one-row matrix is its broadcast along axis 1 into that shape. -/
theorem row_reshape_eq_broadcast {b : ℕ} (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, c, rfl⟩ : ∃ (u : Fin 1) (c : Fin b), i = ix2 u c := ⟨i 0, i 1, eq_ix2 i⟩
  rw [shapeCast_a_1a_apply]
  refine (broadcastInDim_apply ![1] h' v (ix2 u c) (ix1 c) fun ax => ?_).symm
  match ax with
  | ⟨0, _⟩ =>
    show c.val = if b = 1 then 0 else c.val
    split
    · have := c.isLt; omega
    · rfl

end Cert.Gcn
-- ==== Proof.KerChain.lean ====
/-
  THE KERNEL PROGRAM'S RESULT, stage by stage, is the reference's. The program alternates stretches of host operations
  with its three regions; the buffers' contents at each boundary are a fold from the launch memory. Walking the fold:

  * the first stretch leaves the two index vectors with the self loops appended, and the two degree-factor columns —
    each the reciprocal square root of a scatter-add of ones, reshaped to a column where the reference broadcasts it to
    the same shape (one array, two spellings);
  * region 0 leaves the first projection scaled by the out-degree column: the reference's first dense stage;
  * the second stretch gathers its rows by the source indices and scatter-adds them by destination — the SAME two host
    operations, with the same dimension numbers, that the reference applies to the same array — and reshapes the first
    bias to a row;
  * region 1 leaves the fused middle stage, the third stretch aggregates again and reshapes the second bias, region 2
    leaves the closing stage, and the last operation adds the leading unit axis.

  The gather and the scatter-add are never opened: both programs apply them to arguments shown equal. A buffer that a
  stretch does not write and that is no array of a region keeps its contents; an input array of a region is left as the
  region found it.
-/
import proofs.«152995_j71339406787240_1_alg».proof.Proof.KerRegion0
import proofs.«152995_j71339406787240_1_alg».proof.Proof.KerRegion1
import proofs.«152995_j71339406787240_1_alg».proof.Proof.KerRegion2
import proofs.«152995_j71339406787240_1_alg».proof.Proof.RefStages
import proofs.«152995_j71339406787240_1_alg».proof.Proof.Columns
import Idealize.ShloMosaic.Lib.StableHlo.Run

set_option maxRecDepth 16384

noncomputable section

namespace Cert.Gcn.Chain

open Cert.KernelIdeal Cert.KernelIdeal.Gen Idealize.ShloMosaic Idealize.ShloMosaic.TcCoe Idealize.ShloMosaic.ValueIdx Cert.Gcn Cert.Gcn.Ker
open Idealize.SL.Sem Idealize.ShloMosaic.StableHlo
open Cert.ReferenceIdeal.Read

variable (m : (ℓ : Loc nD τ sig) → Buf (Elt Ideal) ℓ) (ρ : Dev nD → PrngReg) (c : Dev nD)

/-! ## The dimension numbers of the sparse operations are the same records in both programs -/

theorem degScatter_eq : Cert.KernelIdeal.scatter_S100000_S1700000x1_S1700000_n_0_0_1 = Cert.ReferenceIdeal.scatter_S100000_S1700000x1_S1700000_n_0_0_1 := rfl
theorem rowGather_eq : Cert.KernelIdeal.gather_S100000x64_S1700000x1_S1700000x64_1_0_n_n_0_1_164 = Cert.ReferenceIdeal.gather_S100000x64_S1700000x1_S1700000x64_1_0_n_n_0_1_164 := rfl
theorem rowScatter_eq : Cert.KernelIdeal.scatter_S100000x64_S1700000x1_S1700000x64_1_0_0_1 = Cert.ReferenceIdeal.scatter_S100000x64_S1700000x1_S1700000x64_1_0_0_1 := rfl

/-! ## After the first stretch of host operations -/

theorem W1_arg0 : W1 m ρ c (Proc.devRef .tc main_arg0) = (m ((c : Thread nD τ).loc main_arg0)) := by
  show StableHlo.after hostOps0 (W0 m ρ c) (Proc.devRef .tc main_arg0) = _
  after_results
theorem W1_arg3 : W1 m ρ c (Proc.devRef .tc main_arg3) = (m ((c : Thread nD τ).loc main_arg3)) := by
  show StableHlo.after hostOps0 (W0 m ρ c) (Proc.devRef .tc main_arg3) = _
  after_results
theorem W1_arg4 : W1 m ρ c (Proc.devRef .tc main_arg4) = (m ((c : Thread nD τ).loc main_arg4)) := by
  show StableHlo.after hostOps0 (W0 m ρ c) (Proc.devRef .tc main_arg4) = _
  after_results
theorem W1_arg5 : W1 m ρ c (Proc.devRef .tc main_arg5) = (m ((c : Thread nD τ).loc main_arg5)) := by
  show StableHlo.after hostOps0 (W0 m ρ c) (Proc.devRef .tc main_arg5) = _
  after_results
theorem W1_arg6 : W1 m ρ c (Proc.devRef .tc main_arg6) = (m ((c : Thread nD τ).loc main_arg6)) := by
  show StableHlo.after hostOps0 (W0 m ρ c) (Proc.devRef .tc main_arg6) = _
  after_results

/-- The source indices with the self loops appended. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl
/-- The destination indices with the self loops appended. -/
theorem W1_v2 : W1 m ρ c (Proc.devRef .tc main_v2) = val_main_v2 (F := Ideal) (m ((c : Thread nD τ).loc main_arg2)) := by
  show StableHlo.after hostOps0 (W0 m ρ c) (Proc.devRef .tc main_v2) = _
  after_results
  rfl

/-- The out-degree factors as a column: the reshape the kernel's program applies is the reference's broadcast. -/
theorem W1_v11 : W1 m ρ c (Proc.devRef .tc main_v11) = val_main_v13 (F := Ideal) (m ((c : Thread nD τ).loc main_arg1)) := by
  show StableHlo.after hostOps0 (W0 m ρ c) (Proc.devRef .tc main_v11) = _
  after_results
  refine Eq.trans ?_ (column_reshape_eq_broadcast (val_main_v10 (F := Ideal) (m ((c : Thread nD τ).loc main_arg1)))
    Cert.KernelIdeal.Facts₀.shapeCasts_S100000_S100000x1 Cert.ReferenceIdeal.Facts₀.bcast_S100000_S100000x1_0)
  rw [degScatter_eq]
  rfl
/-- The in-degree factors as a column. -/
theorem W1_v13 : W1 m ρ c (Proc.devRef .tc main_v13) = val_main_v26 (F := Ideal) (m ((c : Thread nD τ).loc main_arg2)) := by
  show StableHlo.after hostOps0 (W0 m ρ c) (Proc.devRef .tc main_v13) = _
  after_results
  refine Eq.trans ?_ (column_reshape_eq_broadcast (val_main_v11 (F := Ideal) (m ((c : Thread nD τ).loc main_arg2)))
    Cert.KernelIdeal.Facts₀.shapeCasts_S100000_S100000x1 Cert.ReferenceIdeal.Facts₀.bcast_S100000_S100000x1_0)
  rw [degScatter_eq]
  rfl

/-! ## After region 0 -/

/-- The first layer's message before aggregation. -/
theorem W2_v14 : W2 m ρ c (Proc.devRef .tc main_v14) = val_main_v15 (F := Ideal) (m ((c : Thread nD τ).loc main_arg0)) (m ((c : Thread nD τ).loc main_arg1)) (m ((c : Thread nD τ).loc main_arg3)) := by
  refine (W2_arr m ρ c 3).trans ?_
  rw [final0 (V1 m ρ) c]
  show projScale (W1 m ρ c (Proc.devRef .tc main_arg0)) (W1 m ρ c (Proc.devRef .tc main_arg3)) (W1 m ρ c (Proc.devRef .tc main_v11)) = _
  rw [W1_arg0, W1_arg3, W1_v11]
  exact (Ref.stage_in _ _ _).symm

theorem W2_v1 : W2 m ρ c (Proc.devRef .tc main_v1) = val_main_v1 (F := Ideal) (m ((c : Thread nD τ).loc main_arg1)) :=
  (W2_of_ne m ρ c main_v1 (by decide)).trans (W1_v1 m ρ c)
theorem W2_v2 : W2 m ρ c (Proc.devRef .tc main_v2) = val_main_v2 (F := Ideal) (m ((c : Thread nD τ).loc main_arg2)) :=
  (W2_of_ne m ρ c main_v2 (by decide)).trans (W1_v2 m ρ c)
theorem W2_v13 : W2 m ρ c (Proc.devRef .tc main_v13) = val_main_v26 (F := Ideal) (m ((c : Thread nD τ).loc main_arg2)) :=
  (W2_of_ne m ρ c main_v13 (by decide)).trans (W1_v13 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
/-- The out-degree column is an input of region 0: left as found. -/
theorem W2_v11 : W2 m ρ c (Proc.devRef .tc main_v11) = val_main_v13 (F := Ideal) (m ((c : Thread nD τ).loc main_arg1)) :=
  ((W2_arr m ρ c 2).trans (((dat0 (V1 m ρ) c).arrAt_in 2 rfl _).trans (A_eq0 (V1 m ρ) c 2))).trans (W1_v11 m ρ c)

/-! ## After the second stretch -/

/-- The first aggregate: the rows of the message gathered by source and scatter-added by destination. -/
theorem W3_v24 : W3 m ρ c (Proc.devRef .tc main_v24) = val_main_v25 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v24) = _
  after_results
  rw [W2_v14, W2_v1, W2_v2, rowScatter_eq, rowGather_eq]
  unfold val_main_v25 val_main_v24 val_main_v23 val_main_v22 val_main_v21 val_main_v20 val_main_v19 val_main_v18 val_main_v17
    val_main_v16 val_main_c val_main_c_2 val_main_cst_3
  with_reducible rfl

/-- The first bias as a one-row matrix: the reshape is the reference's broadcast. -/
theorem W3_v25 : W3 m ρ c (Proc.devRef .tc main_v25) = val_main_v29 (F := Ideal) (m ((c : Thread nD τ).loc main_arg4)) := by
  show StableHlo.after hostOps1 (W2 m ρ c) (Proc.devRef .tc main_v25) = _
  after_results
  rw [W2_arg4]
  exact row_reshape_eq_broadcast (m ((c : Thread nD τ).loc main_arg4)) Cert.KernelIdeal.Facts₀.shapeCasts_S64_S1x64 Cert.ReferenceIdeal.Facts₀.bcast_S64_S1x64_1

theorem W3_v1 : W3 m ρ c (Proc.devRef .tc main_v1) = val_main_v1 (F := Ideal) (m ((c : Thread nD τ).loc main_arg1)) := by
  show StableHlo.after hostOps1 (W2 m ρ c) (Proc.devRef .tc main_v1) = _
  after_results
  exact W2_v1 m ρ c
theorem W3_v2 : W3 m ρ c (Proc.devRef .tc main_v2) = val_main_v2 (F := Ideal) (m ((c : Thread nD τ).loc main_arg2)) := by
  show StableHlo.after hostOps1 (W2 m ρ c) (Proc.devRef .tc main_v2) = _
  after_results
  exact W2_v2 m ρ c
theorem W3_v11 : W3 m ρ c (Proc.devRef .tc main_v11) = val_main_v13 (F := Ideal) (m ((c : Thread nD τ).loc main_arg1)) := by
  show StableHlo.after hostOps1 (W2 m ρ c) (Proc.devRef .tc main_v11) = _
  after_results
  exact W2_v11 m ρ c
theorem W3_v13 : W3 m ρ c (Proc.devRef .tc main_v13) = val_main_v26 (F := Ideal) (m ((c : Thread nD τ).loc main_arg2)) := by
  show StableHlo.after hostOps1 (W2 m ρ c) (Proc.devRef .tc main_v13) = _
  after_results
  exact W2_v13 m ρ c
theorem W3_arg5 : W3 m ρ c (Proc.devRef .tc main_arg5) = (m ((c : Thread nD τ).loc main_arg5)) := by
  show StableHlo.after hostOps1 (W2 m ρ c) (Proc.devRef .tc main_arg5) = _
  after_results
  exact W2_arg5 m ρ c
theorem W3_arg6 : W3 m ρ c (Proc.devRef .tc main_arg6) = (m ((c : Thread nD τ).loc main_arg6)) := by
  show StableHlo.after hostOps1 (W2 m ρ c) (Proc.devRef .tc main_arg6) = _
  after_results
  exact W2_arg6 m ρ c

/-! ## After region 1 -/

/-- The second layer's message before aggregation. -/
theorem W4_v26 : W4 m ρ c (Proc.devRef .tc main_v26)
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 5).trans ?_
  rw [final1 (V3 m ρ) c]
  show reluProjScale (W3 m ρ c (Proc.devRef .tc main_v24)) (W3 m ρ c (Proc.devRef .tc main_v13)) (W3 m ρ c (Proc.devRef .tc main_v25))
    (W3 m ρ c (Proc.devRef .tc main_arg5)) (W3 m ρ c (Proc.devRef .tc main_v11)) = _
  rw [W3_v24, W3_v13, W3_v25, W3_arg5, W3_v11]
  exact (Ref.stage_mid _ _ _ _ _ _).symm

theorem W4_v1 : W4 m ρ c (Proc.devRef .tc main_v1) = val_main_v1 (F := Ideal) (m ((c : Thread nD τ).loc main_arg1)) :=
  (W4_of_ne m ρ c main_v1 (by decide)).trans (W3_v1 m ρ c)
theorem W4_v2 : W4 m ρ c (Proc.devRef .tc main_v2) = val_main_v2 (F := Ideal) (m ((c : Thread nD τ).loc main_arg2)) :=
  (W4_of_ne m ρ c main_v2 (by decide)).trans (W3_v2 m ρ c)
theorem W4_arg6 : W4 m ρ c (Proc.devRef .tc main_arg6) = (m ((c : Thread nD τ).loc main_arg6)) :=
  (W4_of_ne m ρ c main_arg6 (by decide)).trans (W3_arg6 m ρ c)
/-- The in-degree column is an input of region 1: left as found. -/
theorem W4_v13 : W4 m ρ c (Proc.devRef .tc main_v13) = val_main_v26 (F := Ideal) (m ((c : Thread nD τ).loc main_arg2)) :=
  ((W4_arr m ρ c 1).trans (((dat1 (V3 m ρ) c).arrAt_in 1 rfl _).trans (A_eq1 (V3 m ρ) c 1))).trans (W3_v13 m ρ c)

/-! ## After the third stretch -/

/-- The second aggregate. -/
theorem W5_v36 : W5 m ρ c (Proc.devRef .tc main_v36)
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v36) = _
  after_results
  rw [W4_v26, W4_v1, W4_v2, rowScatter_eq, rowGather_eq]
  unfold val_main_v46 val_main_v45 val_main_v44 val_main_v43 val_main_v42 val_main_v41 val_main_v40 val_main_v39 val_main_v38
    val_main_v37 val_main_c_4 val_main_c_5 val_main_cst_6
  with_reducible rfl

/-- The second bias as a one-row matrix. -/
theorem W5_v37 : W5 m ρ c (Proc.devRef .tc main_v37) = val_main_v50 (F := Ideal) (m ((c : Thread nD τ).loc main_arg6)) := by
  show StableHlo.after hostOps2 (W4 m ρ c) (Proc.devRef .tc main_v37) = _
  after_results
  rw [W4_arg6]
  exact row_reshape_eq_broadcast (m ((c : Thread nD τ).loc main_arg6)) Cert.KernelIdeal.Facts₀.shapeCasts_S64_S1x64 Cert.ReferenceIdeal.Facts₀.bcast_S64_S1x64_1

theorem W5_v13 : W5 m ρ c (Proc.devRef .tc main_v13) = val_main_v26 (F := Ideal) (m ((c : Thread nD τ).loc main_arg2)) := by
  show StableHlo.after hostOps2 (W4 m ρ c) (Proc.devRef .tc main_v13) = _
  after_results
  exact W4_v13 m ρ c

/-! ## After region 2, and the result -/

/-- The result before the leading unit axis. -/
theorem W6_v38 : W6 m ρ c (Proc.devRef .tc main_v38)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ?_
  rw [final2 (V5 m ρ) c]
  show scaleShift (W5 m ρ c (Proc.devRef .tc main_v36)) (W5 m ρ c (Proc.devRef .tc main_v13)) (W5 m ρ c (Proc.devRef .tc main_v37)) = _
  rw [W5_v36, W5_v13, W5_v37]
  exact (Ref.stage_out _ _ _ _ _ _ _).symm

/-- THE RESULT BUFFER when @main returns holds the reference's result term of the same arguments. -/
theorem W7_v39 : W7 m ρ c (Proc.devRef .tc main_v39)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v39) = _
  after_results
  rw [W6_v38]
  rfl

end Cert.Gcn.Chain

end
-- ==== Proof.lean ====
/-
  A two-layer graph convolution with symmetric degree normalisation (self loops added),
      out = D_in^{-1/2} · A · D_out^{-1/2} · relu( D_in^{-1/2} · A · D_out^{-1/2} · X · W1 + b1 ) · W2 + b2 ,
  computed two ways that agree over the extended reals.

  The kernel's program keeps the sparse product with the adjacency A — a gather of source rows and a scatter-add into
  destination rows — on the host and runs every dense stage in one of three kernels over ten blocks of 10000 rows:
  the projection X · W1 with its rows scaled by the out-degree factors; the first layer's close (in-degree scale,
  bias, positive part) fused with the second projection and its out-degree scale; and the second layer's close. The
  reference does the same arithmetic on whole arrays, in the same order. Read at the extended reals the two differ
  only in spelling: a change of float format is the identity, the matrix unit's product into a zero accumulator is the
  host's contraction, a column or a row made by a reshape is the one made by a broadcast, and a block of rows of a
  dense stage is the stage of the blocks. No law of arithmetic that could fail at an infinity is used, so the
  precondition is never opened.

  The three frames are the generated ones (the reference's is its generated run with the result dropped); the ideal
  pass rewrote nothing, so there is nothing to preserve; and for the value claim both runs are stated at ONE result
  term, the reference's own composed term of the arguments: the kernel program's run with its result buffer named, and
  that buffer's contents walked back through the regions and the host stretches (Proof/KerChain.lean), against the
  reference's run.
-/
import proofs.«152995_j71339406787240_1_alg».proof.Defs
import proofs.«152995_j71339406787240_1_alg».proof.Proof.Gen.Kernel
import proofs.«152995_j71339406787240_1_alg».proof.Proof.Gen.Kernel.Skeleton
import proofs.«152995_j71339406787240_1_alg».proof.Proof.Gen.Kernel.Launch
import proofs.«152995_j71339406787240_1_alg».proof.Proof.Gen.Kernel.Points
import proofs.«152995_j71339406787240_1_alg».proof.Proof.Gen.Kernel.Frame
import proofs.«152995_j71339406787240_1_alg».proof.Proof.Gen.KernelIdeal
import proofs.«152995_j71339406787240_1_alg».proof.Proof.Gen.KernelIdeal.Skeleton
import proofs.«152995_j71339406787240_1_alg».proof.Proof.Gen.KernelIdeal.Launch
import proofs.«152995_j71339406787240_1_alg».proof.Proof.Gen.KernelIdeal.Points
import proofs.«152995_j71339406787240_1_alg».proof.Proof.Gen.KernelIdeal.Frame
import proofs.«152995_j71339406787240_1_alg».proof.Proof.Gen.ReferenceIdeal
import proofs.«152995_j71339406787240_1_alg».proof.Proof.Gen.ReferenceIdeal.Run
import proofs.«152995_j71339406787240_1_alg».proof.Proof.Gen.ReferenceIdeal.Read
import proofs.«152995_j71339406787240_1_alg».proof.Proof.Gen.Pre_finite_inputs
import proofs.«152995_j71339406787240_1_alg».proof.Proof.KerRunNamed
import proofs.«152995_j71339406787240_1_alg».proof.Proof.KerChain
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result buffer at the reference's composed term of the (agreeing) arguments. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.Gcn.Chain.W7_v39 m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v53_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
